-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x8192 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x256 : Shape := ⟨2, ![256, 256]⟩
abbrev S512x8192 : Shape := ⟨2, ![512, 8192]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S8192x256, .f32⟩
  | .local _ .vmem, ⟨0, _⟩ => ⟨S8192x256, .f32⟩
  | .local _ .vmem, ⟨1, _⟩ => ⟨S256x256, .f32⟩
  | .local _ .vmem, ⟨2, _⟩ => ⟨S512x8192, .f32⟩
  | .local _ .vmem, ⟨3, _⟩ => ⟨S512x8192, .f32⟩
  | .local _ .vmem, ⟨4, _⟩ => ⟨S512x256, .f32⟩
  | .local _ .vmem, ⟨5, _⟩ => ⟨S512x256, .f32⟩
  | .local _ .vmem, ⟨6, _⟩ => ⟨S8192x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8192x256_S8192x256_0_0 : ∀ a, (![0, 0] : Fin 2 → Nat) a + S8192x256.size a ≤ S8192x256.size a
  h_S8192x256 : 0 < S8192x256.numel
  inb_S256x256_S256x256_0_0 : ∀ a, (![0, 0] : Fin 2 → Nat) a + S256x256.size a ≤ S256x256.size a
  h_S256x256 : 0 < S256x256.numel
  shapeCasts_S8192x256_S8192x256 : S8192x256.ShapeCasts S8192x256
  inb_S512x8192_S512x8192_0_0 : ∀ a, (![0, 0] : Fin 2 → Nat) a + S512x8192.size a ≤ S512x8192.size a
  h_S512x8192 : 0 < S512x8192.numel
  inb_S512x256_S512x256_0_0 : ∀ a, (![0, 0] : Fin 2 → Nat) a + S512x256.size a ≤ S512x256.size a
  h_S512x256 : 0 < S512x256.numel
  dot_S8192x256_S256x256_S8192x256_1_0_0_1_n_n_wf : DotDims.WF S8192x256 S256x256 S8192x256 [1] [0] [0] [1] [] []
  dot_S512x8192_S8192x256_S512x256_1_0_0_1_n_n_wf : DotDims.WF S512x8192 S8192x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .f32 = 32 ∨ (Rect.block (s := S8192x8192) S512x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192x256, .f32⟩
  | .hbm, ⟨7, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KPieces.lean ====
/-
  What one grid point's body leaves behind, as values.

  The body has two cases. At the first point of each core's row of the grid (case A) it forms the hidden features
  `x · W` from the whole feature and weight blocks and stores them over the whole scratch; it then reads the scratch
  back, multiplies the point's adjacency row block by it and stores the rectified product over the whole output
  block. At every other point (case B) it stores nothing into the scratch, reads what the point before left there,
  and forms the output block from that in the same way. Each store covers its whole buffer, so what a buffer holds
  afterwards is the one stored value: the payload of the store, as a function of the values the body loaded.
-/
import proofs.«105980_g66340064854103_cont_9to1_m_1098_22_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A leaves the hidden features' payload in the scratch: the product of the feature block and the weight block. -/
theorem scratch_A (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S512x8192 .f32) (harg4 : arg4.IsWhole) (arg5 : Memref sig .tc .vmem S512x256 .f32) (harg5 : arg5.IsWhole) (arg6 : Memref sig .tc .vmem S8192x256 .f32) (harg6 : arg6.IsWhole) (hc0 : cond0_0 i)
    (x0 : Vec F S8192x256 .f32) (x1 : Vec F S256x256 .f32) (x2 : Vec F S512x8192 .f32) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, harg3.read_unread, View.ld_unit_zero (S := S8192x256) hz,
    View.ld_unit_zero (S := S256x256) hz]

/-- Case A leaves in the output block the rectified product of the adjacency block with the hidden features it has
    just stored (the scratch is read back after the store that covers it). -/
theorem out_A (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S512x8192 .f32) (harg4 : arg4.IsWhole) (arg5 : Memref sig .tc .vmem S512x256 .f32) (harg5 : arg5.IsWhole) (arg6 : Memref sig .tc .vmem S8192x256 .f32) (harg6 : arg6.IsWhole) (hc0 : cond0_0 i)
    (x0 : Vec F S8192x256 .f32) (x1 : Vec F S256x256 .f32) (x2 : Vec F S512x8192 .f32) :
    out0_A_3 c i arg2 harg2 arg3 harg3 arg4 harg4 arg5 harg5 arg6 harg6 hc0 x0 x1 x2 = k0_pay2 x2 (k0_pay1 x0 x1) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, harg3.read_unread, harg4.read_unread,
    View.ld_unit_zero (S := S8192x256) hz, View.ld_unit_zero (S := S256x256) hz, View.ld_unit_zero (S := S512x8192) hz,
    View.readCov_unit_zero (S := S8192x256) _ hz]

/-- Case B leaves in the output block the rectified product of the adjacency block with what the scratch held. -/
theorem out_B (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S512x8192 .f32) (harg4 : arg4.IsWhole) (arg5 : Memref sig .tc .vmem S512x256 .f32) (harg5 : arg5.IsWhole) (arg6 : Memref sig .tc .vmem S8192x256 .f32) (harg6 : arg6.IsWhole) (hc0 : ¬cond0_0 i)
    (x0 : Vec F S8192x256 .f32) (x1 : Vec F S256x256 .f32) (x2 : Vec F S512x8192 .f32) (xs0 : Vec F S8192x256 .f32) :
    out0_B_3 c i arg2 harg2 arg3 harg3 arg4 harg4 arg5 harg5 arg6 harg6 hc0 x0 x1 x2 xs0 = k0_pay2 x2 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz]
  simp only [View.readAt_eq_ld, harg4.read_unread, harg6.read_unread,
    View.ld_unit_zero (S := S8192x256) hz, View.ld_unit_zero (S := S512x8192) hz]

end Cert.KernelIdeal.Pieces

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.Spec.lean ====
/-
  The graph-convolution layer as one function of its three arrays, on the extended reals.

  For node features `x` (8192 × 256), a dense adjacency `adj` (8192 × 8192) and weights `W` (256 × 256):
    hidden[k, j] = Σ_l x[k, l] · W[l, j]                  (the features times the weights)
    layer[r, j]  = max (Σ_k adj[r, k] · hidden[k, j]) 0   (aggregation over all nodes, then the rectifier)
  The sums are finite sums in the extended reals, where addition is commutative and associative, so the order in
  which a machine forms them does not matter; nothing here distributes a product over a sum, so no entry needs to be
  finite. The zero of the rectifier is kept as the word it is printed with.
-/
import proofs.«105980_g66340064854103_cont_9to1_m_1098_22_alg».proof.Proof.LibMatmulPlain

noncomputable section

open scoped BigOperators
open Idealize.ShloMosaic Idealize.ShloMosaic.ValueIdx

namespace Cert.Gcn

/-- The node-feature and result shape, the adjacency's and the weights'. -/
abbrev SN : Shape := ⟨2, ![8192, 256]⟩
abbrev SAdj : Shape := ⟨2, ![8192, 8192]⟩
abbrev SWt : Shape := ⟨2, ![256, 256]⟩
/-- One row block of the adjacency (512 of its 8192 rows) and of the result. -/
abbrev SAdjBlk : Shape := ⟨2, ![512, 8192]⟩
abbrev SOutBlk : Shape := ⟨2, ![512, 256]⟩

/-- The hidden features `x · W`: entry `(k, j)` is `Σ_l x[k, l] · W[l, j]`. -/
def hidden (x : FVec Ideal SN .f32) (W : FVec Ideal SWt .f32) : FVec Ideal SN .f32 :=
  fun i => ∑ l : Fin 256, x (ix2 (i 0) l) * W (ix2 l (i 1))

theorem hidden_apply (x : FVec Ideal SN .f32) (W : FVec Ideal SWt .f32) (k : Fin 8192) (j : Fin 256) :
    hidden x W (ix2 k j) = ∑ l : Fin 256, x (ix2 k l) * W (ix2 l j) := rfl

/-- The layer's result: entry `(r, j)` is `max (Σ_k adj[r, k] · hidden[k, j]) 0`. -/
def layer (x : FVec Ideal SN .f32) (adj : FVec Ideal SAdj .f32) (W : FVec Ideal SWt .f32) : FVec Ideal SN .f32 :=
  fun i => max (∑ k : Fin 8192, adj (ix2 (i 0) k) * hidden x W (ix2 k (i 1))) (Ideal.ofBits .f32 0x00000000#32)

theorem layer_apply (x : FVec Ideal SN .f32) (adj : FVec Ideal SAdj .f32) (W : FVec Ideal SWt .f32) (r : Fin 8192) (j : Fin 256) :
    layer x adj W (ix2 r j)
      = max (∑ k : Fin 8192, adj (ix2 r k) * hidden x W (ix2 k j)) (Ideal.ofBits .f32 0x00000000#32) := rfl

/-- The matrix unit's product of the features and the weights into a zero block is the hidden features. -/
theorem matmul_hidden (x : FVec Ideal SN .f32) (W : FVec Ideal SWt .f32) :
    FloatOps.matmul (DotDims.plain 8192 256 256) none x W (constant SN .f32 0x00000000#32) = hidden x W := by
  funext i
  obtain ⟨k, j, rfl⟩ : ∃ (k : Fin 8192) (j : Fin 256), i = ix2 k j := ⟨i 0, i 1, eq_ix2 i⟩
  exact Cert.MatmulPlain.matmul_zero_apply none x W k j

/-- So is the host's contraction of the two. -/
theorem dotGeneral_hidden (sched : HostSchedule) (x : FVec Ideal SN .f32) (W : FVec Ideal SWt .f32) :
    FloatOps.dotGeneral (DotDims.plain 8192 256 256) none sched x W = hidden x W := by
  funext i
  obtain ⟨k, j, rfl⟩ : ∃ (k : Fin 8192) (j : Fin 256), i = ix2 k j := ⟨i 0, i 1, eq_ix2 i⟩
  exact Cert.MatmulPlain.dotGeneral_apply none sched x W k j

end Cert.Gcn

end
-- ==== Proof.KValue.lean ====
/-
  The kernel's result array is the layer of its three argument arrays.

  The grid has 16 points, 8 for each of the two leading coordinates. At every point the feature and weight windows
  hold their whole arrays, the adjacency window holds the 512 rows whose block index is the output block's, and the
  output window's block index runs through all 16 row blocks exactly once. The scratch holds the hidden features
  `x · W` after every point: a point that is first in its row of the grid stores them, every other point leaves the
  scratch as the point before left it (induction on the point). So every point writes back the rectified product of
  its adjacency rows with the hidden features, which is its row block of the layer; the 16 blocks cover the array.
-/
import proofs.«105980_g66340064854103_cont_9to1_m_1098_22_alg».proof.Proof.Gen.KernelIdeal.Value
import proofs.«105980_g66340064854103_cont_9to1_m_1098_22_alg».proof.Proof.KPieces
import proofs.«105980_g66340064854103_cont_9to1_m_1098_22_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen Cert.KernelIdeal.Value Cert.Gcn

variable (m : (ℓ : Loc nD τ sig) → Buf (Elt Ideal) ℓ) (ρ : Dev nD → PrngReg)

/-- The argument arrays as launched: node features, adjacency, weights. -/
abbrev xarr (c : Dev nD) : FVec Ideal S8192x256 .f32 := m ((c : Thread nD τ).loc main_arg0)
abbrev adjarr (c : Dev nD) : FVec Ideal S8192x8192 .f32 := m ((c : Thread nD τ).loc main_arg1)
abbrev warr (c : Dev nD) : FVec Ideal S256x256 .f32 := m ((c : Thread nD τ).loc main_arg2)

/-- The three input windows' blocks at a point: features, weights, adjacency rows. -/
abbrev xblk (c : Dev nD) (t : Fin cfg0.N) : Vec Ideal S8192x256 .f32 := iblk m c 0 t
abbrev wblk (c : Dev nD) (t : Fin cfg0.N) : Vec Ideal S256x256 .f32 := iblk m c 1 t
abbrev ablk (c : Dev nD) (t : Fin cfg0.N) : Vec Ideal S512x8192 .f32 := iblk m c 2 t

/-- The block indices over the grid: the feature and weight windows never move, the adjacency window's row block is
    the output's, and the output's row block is below 16. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 15 ∧ win0_3.index t (1 : Fin 2) = 0 :=
  (by decide +kernel : ∀ t : Fin grid0.N, _)

/-- Every one of the 16 row blocks is some point's. -/
theorem idx_onto : ∀ q : Fin 16, ∃ t : Fin cfg0.N, win0_3.index t = ![q.val, 0] :=
  (by decide +kernel : ∀ q : Fin 16, ∃ t : Fin grid0.N, win0_3.index t = ![q.val, 0])

/-- The feature window's block is the whole feature array. -/
theorem xblk_eq (c : Dev nD) (t : Fin cfg0.N) : xblk m c t = xarr m c := by
  obtain ⟨e0, e1, -⟩ := idx_facts t
  funext j
  show V m c main_arg0 (((cfg0.win 0).blk t).view.emb j) = V m c main_arg0 j
  refine congrArg _ (funext fun a => Fin.ext ?_)
  match a with
  | ⟨0, _⟩ => show win0_0.index t (0 : Fin 2) * 8192 + 1 * (j 0).val = (j 0).val; omega
  | ⟨1, _⟩ => show win0_0.index t (1 : Fin 2) * 256 + 1 * (j 1).val = (j 1).val; omega

/-- The weight window's block is the whole weight array. -/
theorem wblk_eq (c : Dev nD) (t : Fin cfg0.N) : wblk m c t = warr m c := by
  obtain ⟨-, -, e2, e3, -⟩ := idx_facts t
  funext j
  show V m c main_arg2 (((cfg0.win 1).blk t).view.emb j) = V m c main_arg2 j
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- Row `p` of the adjacency window's block is row `512 · b + p` of the adjacency, `b` the output's row block. -/
theorem ablk_apply (c : Dev nD) (t : Fin cfg0.N) (p : Fin 512) (k : Fin 8192) (r : Fin 8192)
    (hr : r.val = win0_3.index t (0 : Fin 2) * 512 + p.val) :
    ablk m c t (ix2 p k) = adjarr m c (ix2 r k) := by
  obtain ⟨-, -, -, -, e4, e5, -, -⟩ := idx_facts t
  show V m c main_arg1 (((cfg0.win 2).blk t).view.emb (ix2 p k)) = V m c main_arg1 (ix2 r k)
  refine congrArg _ (funext fun a => Fin.ext ?_)
  match a with
  | ⟨0, _⟩ => show win0_2.index t (0 : Fin 2) * 512 + 1 * p.val = r.val; omega
  | ⟨1, _⟩ => show win0_2.index t (1 : Fin 2) * 8192 + 1 * k.val = k.val; omega

/-- The scratch store's payload is the hidden features of the two blocks it is formed from. -/
theorem pay1_eq (x : FVec Ideal S8192x256 .f32) (W : FVec Ideal S256x256 .f32) : k0_pay1 x W = hidden x W := by
  unfold k0_pay1
  show shapeCast S8192x256 (FloatOps.matmul (DotDims.plain 8192 256 256) none x W (constant S8192x256 .f32 0x00000000#32)) _ = _
  rw [shapeCast_self, matmul_hidden]

/-- The output store's payload at entry `(p, q)`: the rectified sum over all nodes `k` of the adjacency block's
    `(p, k)` times the scratch's `(k, q)`. -/
theorem pay2_apply (a : FVec Ideal S512x8192 .f32) (h : FVec Ideal S8192x256 .f32) (p : Fin 512) (q : Fin 256) :
    k0_pay2 a h (ix2 p q) = max (∑ k : Fin 8192, a (ix2 p k) * h (ix2 k q)) (Ideal.ofBits .f32 0x00000000#32) := by
  unfold k0_pay2
  show max (FloatOps.matmul (DotDims.plain 512 8192 256) none a h (constant S512x256 .f32 0x00000000#32) (ix2 p q))
    (Ideal.ofBits .f32 0x00000000#32) = _
  rw [Cert.MatmulPlain.matmul_zero_apply]

/-! ## What the scratch and the output block hold after each point -/

/-- At a point first in its row of the grid the scratch ends at the hidden-features payload of the point's blocks. -/
theorem scratch_first (c : Dev nD) (t : Fin cfg0.N) (h0 : t.val % 8 = 0) :
    (outsAt0 m c t.val t.isLt).2 = k0_pay1 (xblk m c t) (wblk m c t) := by
  rw [outsAt0_A m c t h0]
  dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (wblk m c t) (ablk m c t)

/-- At any other point it stays as the point before left it. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- After every point the scratch holds the hidden features of the feature and weight arrays. -/
theorem scratch_eq (c : Dev nD) : ∀ (n : ℕ) (hn : n < cfg0.N), (outsAt0 m c n hn).2 = hidden (xarr m c) (warr m c) := by
  intro n
  induction n with
  | zero =>
    intro hn
    refine (scratch_first m c ⟨0, hn⟩ rfl).trans ?_
    rw [xblk_eq, wblk_eq, pay1_eq]
  | succ n ih =>
    intro hn
    by_cases h0 : (n + 1) % 8 = 0
    · refine (scratch_first m c ⟨n + 1, hn⟩ h0).trans ?_
      rw [xblk_eq, wblk_eq, pay1_eq]
    · refine (scratch_later m c ⟨n + 1, hn⟩ h0).trans ?_
      exact ih _

/-- After every point the output block holds the rectified product of the point's adjacency rows with the hidden
    features. -/
theorem block_eq (c : Dev nD) (t : Fin cfg0.N) :
    (outsAt0 m c t.val t.isLt).1 = k0_pay2 (ablk m c t) (hidden (xarr m c) (warr m c)) := by
  by_cases h0 : t.val % 8 = 0
  · rw [outsAt0_A m c t h0]
    dsimp only
    refine (Pieces.out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (wblk m c t) (ablk m c t)).trans ?_
    rw [xblk_eq, wblk_eq, pay1_eq]
  · rw [outsAt0_B m c t h0]
    dsimp only
    refine (Pieces.out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (wblk m c t) (ablk m c t)
      (outsAt0 m c (t.val - 1) (Nat.lt_of_le_of_lt (Nat.sub_le _ _) t.isLt)).2).trans ?_
    rw [scratch_eq m c (t.val - 1) _]

/-! ## From the blocks to the array -/

/-- What point `t` writes back is its row block of the layer. -/
theorem flushed_eq (c : Dev nD) (t : Fin cfg0.N) :
    (dats m 0 c).flushed 3 t
      = ((cfg0.win 3).blk t).view.read (Elt Ideal) (layer (xarr m c) (adjarr m c) (warr m c)) := by
  rw [flushed3, block_eq]
  obtain ⟨-, -, -, -, -, -, e6, e7⟩ := idx_facts t
  funext j
  have hp : (j 0).val < 512 := (j 0).isLt
  have hq : (j 1).val < 256 := (j 1).isLt
  let p : Fin 512 := ⟨(j 0).val, hp⟩
  let q : Fin 256 := ⟨(j 1).val, hq⟩
  let r : Fin 8192 := ⟨win0_3.index t (0 : Fin 2) * 512 + p.val, by show _ < 8192; omega⟩
  have hj : j = ix2 p q := funext fun a => by match a with | ⟨0, _⟩ => rfl | ⟨1, _⟩ => rfl
  have hemb : ((cfg0.win 3).blk t).view.emb j = ix2 r q := funext fun a => Fin.ext (by
    match a with
    | ⟨0, _⟩ => show win0_3.index t (0 : Fin 2) * 512 + 1 * (j 0).val = win0_3.index t (0 : Fin 2) * 512 + (j 0).val; omega
    | ⟨1, _⟩ => show win0_3.index t (1 : Fin 2) * 256 + 1 * (j 1).val = (j 1).val; omega)
  show k0_pay2 (ablk m c t) (hidden (xarr m c) (warr m c)) j
    = layer (xarr m c) (adjarr m c) (warr m c) (((cfg0.win 3).blk t).view.emb j)
  rw [hemb, hj, pay2_apply, layer_apply]
  refine congrArg (fun z => max z (Ideal.ofBits .f32 0x00000000#32)) (Finset.sum_congr rfl fun k _ => ?_)
  rw [ablk_apply m c t p k r rfl]

/-- An index of the array is in point `t`'s block iff each coordinate is in the block's range on its axis. -/
theorem mem_blk (t : Fin cfg0.N) (i : S8192x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Every index of the result array is in some point's block: row `r` in the block of index `r / 512`. -/
theorem cover (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- The result array after the run is the layer of the argument arrays. -/
theorem final (c : Dev nD) : (dats m 0 c).arrAt 3 cfg0.N = layer (xarr m c) (adjarr m c) (warr m c) :=
  (dats m 0 c).arrAt_eq_of_cover 3 (layer (xarr m c) (adjarr m c) (warr m c)) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = layer (xarr m c) (adjarr m c) (warr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.LayerValue

end
-- ==== Proof.RefValue.lean ====
/-
  The reference computes the layer.

  Its run ends with the result at `max (adj · (x · W)) 0`, written with the host's two contractions, the host's
  elementwise maximum and a broadcast of the scalar zero. Each contraction has the dimension numbers of a plain
  matrix product, so at entry `(r, j)` it is the sum over the contracted coordinate of the products of the
  operands' entries; the inner one is the hidden features, the outer one the aggregation over all nodes; the
  broadcast reads the zero word at every index.
-/
import proofs.«105980_g66340064854103_cont_9to1_m_1098_22_alg».proof.Proof.Gen.ReferenceIdeal.Read
import proofs.«105980_g66340064854103_cont_9to1_m_1098_22_alg».proof.Proof.Spec

noncomputable section

open scoped BigOperators
open Idealize.ShloMosaic Idealize.ShloMosaic.ValueIdx

namespace Cert.ReferenceIdeal.RefValue

open Cert.ReferenceIdeal Cert.ReferenceIdeal.Gen

/-- The features-by-weights contraction has the dimension numbers of a plain 8192 × 256 by 256 × 256 product. -/
theorem dims_hidden : dot_S8192x256_S256x256_S8192x256_1_0_0_1_n_n = DotDims.plain 8192 256 256 := rfl

/-- The adjacency-by-hidden contraction those of a plain 8192 × 8192 by 8192 × 256 product. -/
theorem dims_aggregate : dot_S8192x8192_S8192x256_S8192x256_1_0_0_1_n_n = DotDims.plain 8192 8192 256 := rfl

/-- The broadcast scalar zero reads the zero word everywhere. -/
theorem zero_apply (i : S8192x256.Idx) :
    broadcastInDim S8192x256 ![] bcast_S_S8192x256 (constant (F := Ideal) S_ .f32 0x00000000#32) i
      = Ideal.ofBits .f32 0x00000000#32 :=
  broadcastInDim_apply _ bcast_S_S8192x256 _ i (fun a => a.elim0) (fun a => a.elim0)

/-- The reference's result term, at the extended reals, is the layer of its three arguments. -/
theorem result_eq (x : FVec Ideal S8192x256 .f32) (adj : FVec Ideal S8192x8192 .f32) (W : FVec Ideal S256x256 .f32) :
    maximumf (Host.dotGeneral dot_S8192x8192_S8192x256_S8192x256_1_0_0_1_n_n none adj
        (Host.dotGeneral dot_S8192x256_S256x256_S8192x256_1_0_0_1_n_n none x W))
      (broadcastInDim S8192x256 ![] bcast_S_S8192x256 (constant S_ .f32 0x00000000#32))
      = Cert.Gcn.layer x adj W := by
  funext i
  obtain ⟨r, j, rfl⟩ : ∃ (r : Fin 8192) (j : Fin 256), i = ix2 r j := ⟨i 0, i 1, eq_ix2 i⟩
  rw [maximumf_apply, zero_apply, Cert.Gcn.layer_apply]
  refine congrArg (fun z => max z (Ideal.ofBits .f32 0x00000000#32)) ?_
  have hin : Host.dotGeneral dot_S8192x256_S256x256_S8192x256_1_0_0_1_n_n none x W = Cert.Gcn.hidden x W := by
    rw [dims_hidden]; exact Cert.Gcn.dotGeneral_hidden .single x W
  rw [hin, dims_aggregate]
  exact Cert.MatmulPlain.dotGeneral_apply none .single adj (Cert.Gcn.hidden x W) r j

end Cert.ReferenceIdeal.RefValue

end
-- ==== Proof.lean ====
/-
  One dense graph-convolution layer, `relu (adj · (x · W))`, computed by a fused kernel and by the plain reference.

  The kernel walks 16 grid points. It forms the hidden features `x · W` once per row of the grid into a scratch
  buffer that later points read, and at every point writes `max (A_b · (x · W)) 0` for the 512 adjacency rows `A_b`
  of that point's row block; the 16 row blocks tile the result. The reference forms `x · W`, then `adj · (x · W)`,
  then the maximum with zero, on whole arrays. On the extended reals every entry of either result is
    max (Σ_k adj[r, k] · Σ_l x[k, l] · W[l, j]) 0,
  the same nested sum with the same zero: nothing is re-associated across a product, so no entry needs to be finite
  and the precondition is not opened. The word-level kernel and its idealization run without fault and leave their
  arguments unchanged; the idealization rewrote no operation, so there is nothing to preserve.
-/
import proofs.«105980_g66340064854103_cont_9to1_m_1098_22_alg».proof.Defs
import proofs.«105980_g66340064854103_cont_9to1_m_1098_22_alg».proof.Proof.Gen.Kernel
import proofs.«105980_g66340064854103_cont_9to1_m_1098_22_alg».proof.Proof.Gen.Kernel.Skeleton
import proofs.«105980_g66340064854103_cont_9to1_m_1098_22_alg».proof.Proof.Gen.Kernel.Launch
import proofs.«105980_g66340064854103_cont_9to1_m_1098_22_alg».proof.Proof.Gen.Kernel.Points
import proofs.«105980_g66340064854103_cont_9to1_m_1098_22_alg».proof.Proof.Gen.Kernel.Frame
import proofs.«105980_g66340064854103_cont_9to1_m_1098_22_alg».proof.Proof.Gen.KernelIdeal
import proofs.«105980_g66340064854103_cont_9to1_m_1098_22_alg».proof.Proof.Gen.KernelIdeal.Skeleton
import proofs.«105980_g66340064854103_cont_9to1_m_1098_22_alg».proof.Proof.Gen.KernelIdeal.Launch
import proofs.«105980_g66340064854103_cont_9to1_m_1098_22_alg».proof.Proof.Gen.KernelIdeal.Points
import proofs.«105980_g66340064854103_cont_9to1_m_1098_22_alg».proof.Proof.Gen.KernelIdeal.Frame
import proofs.«105980_g66340064854103_cont_9to1_m_1098_22_alg».proof.Proof.Gen.ReferenceIdeal
import proofs.«105980_g66340064854103_cont_9to1_m_1098_22_alg».proof.Proof.Gen.Pre_finite_inputs
import proofs.«105980_g66340064854103_cont_9to1_m_1098_22_alg».proof.Proof.Gen.KernelIdeal.Value
import proofs.«105980_g66340064854103_cont_9to1_m_1098_22_alg».proof.Proof.Gen.ReferenceIdeal.Run
import proofs.«105980_g66340064854103_cont_9to1_m_1098_22_alg».proof.Proof.Gen.ReferenceIdeal.Read
import proofs.«105980_g66340064854103_cont_9to1_m_1098_22_alg».proof.Proof.KValue
import proofs.«105980_g66340064854103_cont_9to1_m_1098_22_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the three arguments, the kernel's result array and the
    reference's both end at the layer of those arguments. -/
theorem algebraic : Cert.algebraic_KernelIdeal_ReferenceIdeal := by
  intro m ρ m' ρ' _ hagree
  refine ⟨fun c => Cert.Gcn.layer (Cert.KernelIdeal.LayerValue.xarr m c) (Cert.KernelIdeal.LayerValue.adjarr m c)
    (Cert.KernelIdeal.LayerValue.warr m c), Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
